-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x1024 : Shape := ⟨3, ![128, 1024, 1024]⟩
abbrev S128 : Shape := ⟨1, ![128]⟩
abbrev S100x1024x1024 : Shape := ⟨3, ![100, 1024, 1024]⟩
abbrev S_ : Shape := ⟨0, ![]⟩

class Facts : Prop where
  bcast_S_S128x1024x1024 : S_.BroadcastsInDim S128x1024x1024 (![] : Fin 0 → Fin S128x1024x1024.rank)
  reducesTo_S128x1024x1024_S_d0_1_2 : S128x1024x1024.ReducesTo [0, 1, 2] S_
  h_S_ : 0 < S_.numel
  bcast_S_S100x1024x1024 : S_.BroadcastsInDim S100x1024x1024 (![] : Fin 0 → Fin S100x1024x1024.rank)
  reducesTo_S100x1024x1024_S_d0_1_2 : S100x1024x1024.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S128x1024x1024 .f32) (main_arg1 : IVec S128 32) (main_arg2 : FVec F S100x1024x1024 .f32) : IVec S_ 1 :=
  let main_v0 : FVec F S128x1024x1024 .f32 := Host.absf main_arg0
  let main_cst : FVec F S_ .f32 := constant S_ .f32 0x7F800000#32
  let main_v1 : FVec F S128x1024x1024 .f32 := broadcastInDim S128x1024x1024 ![] bcast_S_S128x1024x1024 main_cst
  let main_v2 : IVec S128x1024x1024 1 := cmpf .olt main_v0 main_v1
  let main_c : IVec S_ 1 := constantI S_ 1 1#1
  let main_v3 : IVec S_ 1 := (fun x v => Host.reduce IntOp.andi x v reducesTo_S128x1024x1024_S_d0_1_2 h_S_) main_v2 main_c
  let main_v4 : FVec F S100x1024x1024 .f32 := Host.absf main_arg2
  let main_cst_0 : FVec F S_ .f32 := constant S_ .f32 0x7F800000#32
  let main_v5 : FVec F S100x1024x1024 .f32 := broadcastInDim S100x1024x1024 ![] bcast_S_S100x1024x1024 main_cst_0
  let main_v6 : IVec S100x1024x1024 1 := cmpf .olt main_v4 main_v5
  let main_c_1 : IVec S_ 1 := constantI S_ 1 1#1
  let main_v7 : IVec S_ 1 := (fun x v => Host.reduce IntOp.andi x v reducesTo_S100x1024x1024_S_d0_1_2 h_S_) main_v6 main_c_1
  let main_v8 : IVec S_ 1 := andi main_v3 main_v7
  let main_c_2 : IVec S_ 32 := constantI S_ 32 1#32
  let main_v9 : IVec S128 32 := broadcastInDim S128 ![] bcast_S_S128 main_c_2
  let main_v10 : IVec S128 1 := cmpi .sge main_arg1 main_v9
  let main_c_3 : IVec S_ 1 := constantI S_ 1 1#1
  let main_v11 : IVec S_ 1 := (fun x v => Host.reduce IntOp.andi x v reducesTo_S128_S_d0 h_S_) main_v10 main_c_3
  let main_v12 : IVec S_ 1 := andi main_v8 main_v11
  let main_c_4 : IVec S_ 32 := constantI S_ 32 100#32
  let main_v13 : IVec S128 32 := broadcastInDim S128 ![] bcast_S_S128 main_c_4
  let main_v14 : IVec S128 1 := cmpi .sle main_arg1 main_v13
  let main_c_5 : IVec S_ 1 := constantI S_ 1 1#1
  let main_v15 : IVec S_ 1 := (fun x v => Host.reduce IntOp.andi x v reducesTo_S128_S_d0 h_S_) main_v14 main_c_5
  fn_part1 (F := F) main_v12 main_v15
-- ==== Kernel.lean ====
abbrev S128x1024x1024 : Shape := ⟨3, ![128, 1024, 1024]⟩
abbrev S128 : Shape := ⟨1, ![128]⟩
abbrev S100x1024x1024 : Shape := ⟨3, ![100, 1024, 1024]⟩
abbrev S_ : Shape := ⟨0, ![]⟩
abbrev S1x1024x1024 : Shape := ⟨3, ![1, 1024, 1024]⟩
abbrev S1 : Shape := ⟨1, ![1]⟩
abbrev S1024x1024 : Shape := ⟨2, ![1024, 1024]⟩

abbrev nBuf : Space → Nat
  | .hbm => 6
  | .vmem => 6
  | .smem => 1
  | _ => 0

abbrev bufTy : (tb : Table) → Fin (tcTables nBuf tb) → BufTy
  | .hbm, ⟨0, _⟩ => ⟨S128x1024x1024, .f32⟩
  | .hbm, ⟨1, _⟩ => ⟨S128, .i32⟩
  | .hbm, ⟨2, _⟩ => ⟨S100x1024x1024, .f32⟩
  | .hbm, ⟨3, _⟩ => ⟨S_, .i32⟩
  | .hbm, ⟨4, _⟩ => ⟨S128, .i32⟩
  | .hbm, ⟨5, _⟩ => ⟨S128x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .smem, ⟨0, _⟩ => ⟨S128, .i32⟩
  | _, _ => ⟨S128x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v2 : Ref sig .tc := ⟨.hbm, 5, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S128 : S_.BroadcastsInDim S128 (![] : Fin 0 → Fin S128.rank)
  numel1_S1 : S1.numel = 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  hrank0 : 0 < grid0.rank
  k0_off1_inb : ∀ i : grid0.Coords, ∀ a, (k0_off1 i) a + S1.size a ≤ S128.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S128x1024x1024.size a
  hwx0_1 : ∀ i : grid0.Coords, EltTy.bits .f32 = 32 ∨ (Rect.block (s := S128x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S128x1024x1024.size a
  hwx0_2 : ∀ i : grid0.Coords, EltTy.bits .f32 = 32 ∨ (Rect.block (s := S128x1024x1024) S1x1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev spec0_0 : Pipeline.WinSpec sig grid0.rank :=
  Pipeline.WinSpec.ofSpec (Memref.whole main_arg2) S1x1024x1024.size reads0_0 false false 2 stage0_0 sem0_0 nbuf0_0 hstage0_0

abbrev spec0_1 : Pipeline.WinSpec sig grid0.rank :=
  Pipeline.WinSpec.ofSpec (Memref.whole main_arg0) S1x1024x1024.size reads0_1 false false 2 stage0_1 sem0_1 nbuf0_1 hstage0_1

abbrev spec0_2 : Pipeline.WinSpec sig grid0.rank :=
  Pipeline.WinSpec.ofSpec (Memref.whole main_v2) S1x1024x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1024x1024.size a ≤ S100x1024x1024.size a), EltTy.bits .f32 = 32 ∨ (Rect.block (s := S100x1024x1024) S1x1024x1024.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S128x1024x1024 : Shape := ⟨3, ![128, 1024, 1024]⟩
abbrev S128 : Shape := ⟨1, ![128]⟩
abbrev S100x1024x1024 : Shape := ⟨3, ![100, 1024, 1024]⟩
abbrev S_ : Shape := ⟨0, ![]⟩
abbrev S128x1 : Shape := ⟨2, ![128, 1]⟩

abbrev nBuf : Space → Nat
  | .hbm => 16
  | .vmem => 0
  | .smem => 0
  | _ => 0

abbrev bufTy : (tb : Table) → Fin (tcTables nBuf tb) → BufTy
  | .hbm, ⟨0, _⟩ => ⟨S128x1024x1024, .f32⟩
  | .hbm, ⟨1, _⟩ => ⟨S128, .i32⟩
  | .hbm, ⟨2, _⟩ => ⟨S100x1024x1024, .f32⟩
  | .hbm, ⟨3, _⟩ => ⟨S_, .i32⟩
  | .hbm, ⟨4, _⟩ => ⟨S128, .i32⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S128x1024x1024, .f32⟩
  | .hbm, ⟨15, _⟩ => ⟨S128x1024x1024, .f32⟩
  | _, _ => ⟨S128x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  gather_S100x1024x1024_S128x1_S128x1024x1024_12_0_n_n_0_1_110241024_wf : GatherDims.WF S100x1024x1024 S128x1 S128x1024x1024 [1, 2] [0] [] [0] [] 1 ![1, 1024, 1024]
  dot_S128x1024x1024_S128x1024x1024_S128x1024x1024_2_1_1_2_0_0_wf : DotDims.WF S128x1024x1024 S128x1024x1024 S128x1024x1024 [2] [1] [1] [2] [0] [0]

variable [Facts₀]

def gather_S100x1024x1024_S128x1_S128x1024x1024_12_0_n_n_0_1_110241024 : GatherDims S100x1024x1024 S128x1 S128x1024x1024 where
  offsetDims := [1, 2]
  collapsedSliceDims := [0]
  operandBatchingDims := []
  startIndicesBatchingDims := []
  startIndexMap := [0]
  indexVectorDim := 1
  sliceSizes := ![1, 1024, 1024]
  wf := gather_S100x1024x1024_S128x1_S128x1024x1024_12_0_n_n_0_1_110241024_wf
def dot_S128x1024x1024_S128x1024x1024_S128x1024x1024_2_1_1_2_0_0 : DotDims S128x1024x1024 S128x1024x1024 S128x1024x1024 where
  lhsContracting := [2]
  rhsContracting := [1]
  lhsNonContracting := [1]
  rhsNonContracting := [2]
  lhsBatch := [0]
  rhsBatch := [0]
  wf := dot_S128x1024x1024_S128x1024x1024_S128x1024x1024_2_1_1_2_0_0_wf

class Facts : Prop extends Facts₀ where

variable [Facts]
-- ==== Proof.StepRange.lean ====
/-
  The timestep input, as the stated domain admits it.  The precondition is a conjunction of four
  whole-array tests: both float inputs finite, every timestep at least 1, every timestep at most 100.
  The two integer tests are an "and" over the 128 entries of an elementwise signed comparison with a
  constant, so where the conjunction is 1 each entry s of the timestep array satisfies
  1 ≤ s ≤ 100 as a signed word.  From that range: s - 1, as a machine word, reads the same signed
  and unsigned, and lies in 0 … 99 — a valid row of the 100-row table of matrices.
-/
import proofs.«419516_j51951924413084_1_alg».proof.Pre_finite_inputs
import Idealize.ShloMosaic.Lib.ReduceAll
import Idealize.ShloMosaic.Lib.ValueIdx

noncomputable section

namespace Cert.StepRange

open Idealize.ShloMosaic Cert.Pre_finite_inputs

/-- A timestep in 1 … 100, less one, is a row number 0 … 99 of the table, read unsigned. -/
theorem pred_toNat_lt (w : BitVec 32) (h : 1 ≤ w.toInt ∧ w.toInt ≤ 100) : (IntOp.subi w 1#32).toNat < 100 := by
  obtain ⟨h1, h2⟩ := h
  have hw : w.toNat < 2 ^ 32 := w.isLt
  rw [BitVec.toInt_eq_toNat_cond] at h1 h2
  show (w - 1#32).toNat < 100
  rw [BitVec.toNat_sub]
  split at h1 <;> simp at * <;> omega

/-- The same word read signed is that row number too: it is neither negative nor past the last row. -/
theorem pred_toInt (w : BitVec 32) (h : 1 ≤ w.toInt ∧ w.toInt ≤ 100) :
    (IntOp.subi w 1#32).toInt = ((IntOp.subi w 1#32).toNat : Int) := by
  have := pred_toNat_lt w h
  rw [BitVec.toInt_eq_toNat_cond, if_pos (by omega)]

variable [Cert.Pre_finite_inputs.Facts] {F : FTy → Type} [FloatOps F]

/-- The scalar shape has one index. -/
instance : Subsingleton S_.Idx := ⟨fun a b => funext fun d => d.elim0⟩

/-- Where the precondition holds, every timestep is between 1 and 100, signed. -/
theorem steps_in_range (x : FVec F S128x1024x1024 .f32) (s : IVec S128 32) (T : FVec F S100x1024x1024 .f32)
    (h : Cert.Pre_finite_inputs.fn (F := F) x s T = fun _ => 1#1) (b : S128.Idx) :
    1 ≤ (s b).toInt ∧ (s b).toInt ≤ 100 := by
  have e := congrFun h ValueIdx.ix0
  unfold Cert.Pre_finite_inputs.fn Cert.Pre_finite_inputs.fn_part1 at e
  dsimp only at e
  obtain ⟨h12, hle⟩ := IntOp.andi_eq_one.1 (show IntOp.andi _ _ = 1#1 from e)
  obtain ⟨-, hge⟩ := IntOp.andi_eq_one.1 (show IntOp.andi _ _ = 1#1 from h12)
  have h1 : IntOp.cmpi .sge (s b) (1#32) = 1#1 := Host.reduce_andi_all _ _ _ _ _ hge b
  have h2 : IntOp.cmpi .sle (s b) (100#32) = 1#1 := Host.reduce_andi_all _ _ _ _ _ hle b
  rw [IntOp.cmpi_sge] at h1
  rw [IntOp.cmpi_sle] at h2
  exact ⟨h1, h2⟩

end Cert.StepRange

end
-- ==== Proof.TableRows.lean ====
/-
  The table of row numbers the kernel's index map reads, and why every block it names lies inside the
  table of matrices.  Before the kernel is launched the program subtracts 1 from every timestep; the
  result, 128 words, is the prefetched table.  At grid point b the first input window's index map
  reads word b of it and asks for block (word, 0, 0) of the [100,1024,1024] array in blocks of
  [1,1024,1024]: the block is inside the array exactly when the word, read unsigned, is below 100.
  With every timestep in 1 … 100 it is.
-/
import proofs.«419516_j51951924413084_1_alg».proof.Proof.Gen.KernelIdeal.Frame
import proofs.«419516_j51951924413084_1_alg».proof.Proof.StepRange
import Idealize.ShloMosaic.Lib.StableHlo.Run

set_option maxRecDepth 16384

noncomputable section

namespace Cert.KernelIdeal.TableRows

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The timesteps the program is launched with (it runs on one device). -/
abbrev steps : IVec S128 32 := m (((0 : Dev nD) : Thread nD τ).loc main_arg1)

/-- The prefetched table is the timesteps less one, word by word. -/
theorem table_eq : (tbl m 0 : IVec S128 32) = subi (steps m) (broadcastInDim S128 ![] bcast_S_S128 (constantI S_ 32 1#32)) := by
  unfold tbl
  show V m 0 main_v1 = _
  dsimp only [V, hostOps0]
  after_results

/-- Word b of the table is timestep b less one. -/
theorem table_apply (b : S128.Idx) : (tbl m 0 : IVec S128 32) b = IntOp.subi (steps m b) 1#32 := by
  rw [table_eq]; rfl

/-- With timestep b in 1 … 100, word b of the table read unsigned is a row number 0 … 99. -/
theorem word_lt (hs : ∀ b, 1 ≤ (steps m b).toInt ∧ (steps m b).toInt ≤ 100) (b : S128.Idx) :
    ((tbl m 0 : IVec S128 32) b).toNat < 100 := by
  rw [table_apply]
  exact Cert.StepRange.pred_toNat_lt _ (hs b)

/-- THE SIDE CONDITION OF THE LAUNCH: at every grid point the block of matrices the first window's index map names
    lies inside the [100,1024,1024] array (its transfers are of whole 32-bit words). -/
theorem ok_of_range (hs : ∀ b, 1 ≤ (steps m b).toInt ∧ (steps m b).toInt ≤ 100) : Ok m := by
  intro i
  obtain ⟨w, hw, e⟩ : ∃ w : BitVec 32, w.toNat < 100 ∧ cc0_transform_0 k0_off1_inb numel1_S1 (tbl m) i = ![w.toNat, 0, 0] :=
    ⟨_, word_lt m hs _, rfl⟩
  refine ⟨fun a => ?_, Or.inl rfl⟩
  rw [e]
  fin_cases a <;> simp [S1x1024x1024, S100x1024x1024] <;> omega

/-- The same from the stated precondition, read on the one device. -/
theorem ok_of_pre [Cert.Pre_finite_inputs.Facts]
    (h : Cert.Pre_finite_inputs.fn (F := F) (m (((0 : Dev nD) : Thread nD τ).loc main_arg0)) (m (((0 : Dev nD) : Thread nD τ).loc main_arg1))
      (m (((0 : Dev nD) : Thread nD τ).loc main_arg2)) = fun _ => 1#1) : Ok m :=
  ok_of_range m fun b => Cert.StepRange.steps_in_range _ _ _ h b

end Cert.KernelIdeal.TableRows

end
-- ==== Proof.TableRowsBits.lean ====
/-
  The table of row numbers the kernel's index map reads, and why every block it names lies inside the
  table of matrices.  Before the kernel is launched the program subtracts 1 from every timestep; the
  result, 128 words, is the prefetched table.  At grid point b the first input window's index map
  reads word b of it and asks for block (word, 0, 0) of the [100,1024,1024] array in blocks of
  [1,1024,1024]: the block is inside the array exactly when the word, read unsigned, is below 100.
  With every timestep in 1 … 100 it is.
-/
import proofs.«419516_j51951924413084_1_alg».proof.Proof.Gen.Kernel.Frame
import proofs.«419516_j51951924413084_1_alg».proof.Proof.StepRange
import Idealize.ShloMosaic.Lib.StableHlo.Run

set_option maxRecDepth 16384

noncomputable section

namespace Cert.Kernel.TableRows

open Cert.Kernel Cert.Kernel.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The timesteps the program is launched with (it runs on one device). -/
abbrev steps : IVec S128 32 := m (((0 : Dev nD) : Thread nD τ).loc main_arg1)

/-- The prefetched table is the timesteps less one, word by word. -/
theorem table_eq : (tbl m 0 : IVec S128 32) = subi (steps m) (broadcastInDim S128 ![] bcast_S_S128 (constantI S_ 32 1#32)) := by
  unfold tbl
  show V m 0 main_v1 = _
  dsimp only [V, hostOps0]
  after_results

/-- Word b of the table is timestep b less one. -/
theorem table_apply (b : S128.Idx) : (tbl m 0 : IVec S128 32) b = IntOp.subi (steps m b) 1#32 := by
  rw [table_eq]; rfl

/-- With timestep b in 1 … 100, word b of the table read unsigned is a row number 0 … 99. -/
theorem word_lt (hs : ∀ b, 1 ≤ (steps m b).toInt ∧ (steps m b).toInt ≤ 100) (b : S128.Idx) :
    ((tbl m 0 : IVec S128 32) b).toNat < 100 := by
  rw [table_apply]
  exact Cert.StepRange.pred_toNat_lt _ (hs b)

/-- THE SIDE CONDITION OF THE LAUNCH: at every grid point the block of matrices the first window's index map names
    lies inside the [100,1024,1024] array (its transfers are of whole 32-bit words). -/
theorem ok_of_range (hs : ∀ b, 1 ≤ (steps m b).toInt ∧ (steps m b).toInt ≤ 100) : Ok m := by
  intro i
  obtain ⟨w, hw, e⟩ : ∃ w : BitVec 32, w.toNat < 100 ∧ cc0_transform_0 k0_off1_inb numel1_S1 (tbl m) i = ![w.toNat, 0, 0] :=
    ⟨_, word_lt m hs _, rfl⟩
  refine ⟨fun a => ?_, Or.inl rfl⟩
  rw [e]
  fin_cases a <;> simp [S1x1024x1024, S100x1024x1024] <;> omega

/-- The same from the stated precondition, read on the one device. -/
theorem ok_of_pre [Cert.Pre_finite_inputs.Facts]
    (h : Cert.Pre_finite_inputs.fn (F := F) (m (((0 : Dev nD) : Thread nD τ).loc main_arg0)) (m (((0 : Dev nD) : Thread nD τ).loc main_arg1))
      (m (((0 : Dev nD) : Thread nD τ).loc main_arg2)) = fun _ => 1#1) : Ok m :=
  ok_of_range m fun b => Cert.StepRange.steps_in_range _ _ _ h b

end Cert.Kernel.TableRows

end
-- ==== Proof.BlockIndex.lean ====
/-
  Which block each window holds at grid point b (0 ≤ b < 128).  The sample window and the output
  window hold block (b, 0, 0) of their [128,1024,1024] arrays; the matrix window holds block
  (row, 0, 0) of the [100,1024,1024] table, where row is word b of the prefetched table read
  unsigned.  A block's entry (0, p, q) is therefore entry (b, p, q), resp. (row, p, q), of the array.
-/
import proofs.«419516_j51951924413084_1_alg».proof.Proof.TableRows
import Idealize.ShloMosaic.Lib.ValueIdx

set_option maxRecDepth 16384

noncomputable section

namespace Cert.KernelIdeal.BlockIndex

open Cert.KernelIdeal Cert.KernelIdeal.Gen Cert.KernelIdeal.TableRows
open Idealize.ShloMosaic Idealize.ShloMosaic.TcCoe Idealize.SL.Sem Idealize.ShloMosaic.ValueIdx

variable {F : FTy → Type} [FloatOps F]
variable (m : (ℓ : Loc nD τ sig) → Buf (Elt F) ℓ)

/-- A grid point as a sample number. -/
def sample (t : Fin grid0.N) : Fin 128 := ⟨t.val, lt_of_lt_of_eq t.isLt N_0⟩

/-- The offset at which the matrix window's index map reads the table at point t is t; the other two
    windows' block indices at point t are (t, 0, 0): decided over the 128 points. -/
theorem table_off : ∀ t : Fin grid0.N, k0_off1 (grid0.coords t) = ![t.val] := by decide +kernel
theorem sample_index : ∀ t : Fin grid0.N, cc0_transform_1 (grid0.coords t) = ![t.val, 0, 0] := by decide +kernel
theorem result_index : ∀ t : Fin grid0.N, cc0_transform_2 (grid0.coords t) = ![t.val, 0, 0] := by decide +kernel

/-- The one-word rectangle the index map reads the table through at point t names word t. -/
theorem read_word (t : Fin grid0.N) (inb : ∀ a, k0_off1 (grid0.coords t) a + S1.size a ≤ S128.size a) (h1 : 0 < S1.numel) :
    (Rect.unit (s := S128) (k0_off1 (grid0.coords t)) S1.size inb).emb (Shape.Idx.first h1) = ix1 (sample t) := by
  funext a
  apply Fin.ext
  fin_cases a
  show k0_off1 (grid0.coords t) 0 + 1 * (Shape.Idx.first h1 (0 : Fin 1)).val = t.val
  have h0 : (Shape.Idx.first h1 (0 : Fin 1)).val = 0 := by
    have := (Shape.Idx.first h1 (0 : Fin 1)).isLt
    have e : S1.size (0 : Fin 1) = 1 := by decide
    omega
  rw [h0, table_off t]
  show t.val + 1 * 0 = t.val
  omega

/-- The row of the table of matrices the kernel fetches at point t. -/
def fetched (t : Fin grid0.N) : Nat := ((tbl m 0 : IVec S128 32) (ix1 (sample t))).toNat

/-- The matrix window's block index at point t. -/
theorem matrix_index (hO : Ok m) (t : Fin (cfgM m hO).N) : ((cfgM m hO).win 0).index t = ![fetched m t, 0, 0] := by
  show cc0_transform_0 k0_off1_inb numel1_S1 (tbl m) (grid0.coords t) = _
  funext a
  fin_cases a
  · show ((tbl m 0 : IVec S128 32) ((Rect.unit (s := S128) (k0_off1 (grid0.coords t)) S1.size (k0_off1_inb (grid0.coords t))).emb
        (Shape.Idx.first (numel1_S1.symm ▸ Nat.one_pos)))).toNat = fetched m t
    rw [read_word]
    rfl
  · rfl
  · rfl

end Cert.KernelIdeal.BlockIndex

end
-- ==== Proof.SampleProduct.lean ====
/-
  What the kernel leaves in its output block at one grid point, at the ideal instance.
  The body loads the selected table matrix A and the sample X (each a [1,1024,1024] block), views
  them as [1024,1024] matrices, multiplies them into a zero accumulator and stores the product,
  viewed back as a [1,1024,1024] block, over the whole output block.  A change of float format is
  the identity on extended reals, so entry (0, p, q) of the stored block is Σ_j A(0,p,j) · X(0,j,q).
-/
import proofs.«419516_j51951924413084_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.SampleProduct

open Cert.KernelIdeal Cert.KernelIdeal.Gen
open Idealize.ShloMosaic Idealize.ShloMosaic.TcCoe Idealize.SL.Sem
open Idealize.ShloMosaic.ValueIdx

variable {F : FTy → Type} [FloatOps F]

theorem zero_off : (![0, 0, 0] : Fin S1x1024x1024.rank → Nat) = fun _ => 0 := by
  funext a; fin_cases a <;> rfl

/-- The one store of the body covers the whole block, so the block the run leaves is the store's payload. -/
theorem block_eq_payload (c : Dev nD) (i : grid0.Coords) (arg2 : Memref sig .tc .vmem S1x1024x1024 .f32) (harg2 : arg2.IsWhole)
    (arg3 : Memref sig .tc .vmem S1x1024x1024 .f32) (harg3 : arg3.IsWhole) (arg4 : Memref sig .tc .vmem S1x1024x1024 .f32) (harg4 : arg4.IsWhole)
    (x0 : Vec F S1x1024x1024 .f32) (x1 : Vec F S1x1024x1024 .f32) (xt0 : TbBuf0 (F := F) c tbM0_0) :
    out0_A_2 c i arg2 harg2 arg3 harg3 arg4 harg4 x0 x1 xt0 = k0_pay1 x0 x1 := by
  unfold out0_A_2
  rw [View.read_writes_eq_canon _ _ _ (cover0_A_2 c i arg2 harg2 arg3 harg3 arg4 harg4 x0 x1 xt0)]
  unfold kernelRun0_A
  dsimp only
  sl_unfold_words
  rw [View.canon_unit_zero (S := S1x1024x1024) zero_off]
  simp only [View.readAt_eq_ld, Memref.IsWhole.read_unread, View.ld_unit_zero (S := S1x1024x1024) zero_off]

/-! ## The payload at an entry -/

/-- Entry (0, p, q) of a [1,1024,1024] block, and entry (p, q) of a [1024,1024] matrix. -/
abbrev b3 (p q : Fin 1024) : S1x1024x1024.Idx := ix3 (⟨0, Nat.one_pos⟩ : Fin 1) p q
abbrev m2 (p q : Fin 1024) : S1024x1024.Idx := ix2 p q

/-- The product's operand indices: output entry (r, c) and contraction index k read the left matrix at
    (r, k) and the right matrix at (k, c). -/
theorem left_row (j : S1024x1024.Idx) (k : dot_S1024x1024_S1024x1024_S1024x1024_1_0_0_1_n_n.contr.Idx) :
    (dot_S1024x1024_S1024x1024_S1024x1024_1_0_0_1_n_n.lhsIdx j k 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem left_col (j : S1024x1024.Idx) (k : dot_S1024x1024_S1024x1024_S1024x1024_1_0_0_1_n_n.contr.Idx) :
    (dot_S1024x1024_S1024x1024_S1024x1024_1_0_0_1_n_n.lhsIdx j k 1).val = (k ⟨0, by decide⟩).val :=
  dot_S1024x1024_S1024x1024_S1024x1024_1_0_0_1_n_n.lhsIdx_val_of_single rfl j k
theorem right_row (j : S1024x1024.Idx) (k : dot_S1024x1024_S1024x1024_S1024x1024_1_0_0_1_n_n.contr.Idx) :
    (dot_S1024x1024_S1024x1024_S1024x1024_1_0_0_1_n_n.rhsIdx j k 0).val = (k ⟨0, by decide⟩).val :=
  dot_S1024x1024_S1024x1024_S1024x1024_1_0_0_1_n_n.rhsIdx_val_of_single rfl j k
theorem right_col (j : S1024x1024.Idx) (k : dot_S1024x1024_S1024x1024_S1024x1024_1_0_0_1_n_n.contr.Idx) :
    (dot_S1024x1024_S1024x1024_S1024x1024_1_0_0_1_n_n.rhsIdx j k 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A block entry (0, p, q) without its leading unit coordinate is the matrix entry (p, q), and back. -/
theorem tail_b3 (p q : Fin 1024) : (fun a : Fin 2 => b3 p q a.succ) = m2 p q :=
  funext fun a => by match a with | ⟨0, _⟩ => rfl | ⟨1, _⟩ => rfl
theorem cons_m2 (p q : Fin 1024) : (Fin.cons (⟨0, Nat.one_pos⟩ : Fin 1) (m2 p q) : S1x1024x1024.Idx) = b3 p q :=
  funext fun a => by match a with | ⟨0, _⟩ => rfl | ⟨1, _⟩ => rfl | ⟨2, _⟩ => rfl

/-- THE PAYLOAD AT AN ENTRY: Σ_j A(0,p,j) · X(0,j,q). -/
theorem payload_entry (A X : Vec Ideal S1x1024x1024 .f32) (p q : Fin 1024) :
    k0_pay1 (F := Ideal) A X (b3 p q) = ∑ j : Fin 1024, A (b3 p j) * X (b3 j q) := by
  unfold k0_pay1
  rw [shapeCast_addUnit_apply ![1024, 1024], tail_b3]
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (m2 p q) ((contrEquiv1 dot_S1024x1024_S1024x1024_S1024x1024_1_0_0_1_n_n 1024 rfl rfl).symm k) = m2 p k := funext fun a => Fin.ext (by
    match a with
    | ⟨0, _⟩ => exact left_row _ _
    | ⟨1, _⟩ => exact (left_col _ _).trans hk)
  have er : dot_S1024x1024_S1024x1024_S1024x1024_1_0_0_1_n_n.rhsIdx (m2 p q) ((contrEquiv1 dot_S1024x1024_S1024x1024_S1024x1024_1_0_0_1_n_n 1024 rfl rfl).symm k) = m2 k q := funext fun a => Fin.ext (by
    match a with
    | ⟨0, _⟩ => exact (right_row _ _).trans hk
    | ⟨1, _⟩ => exact right_col _ _)
  rw [el, er]
  show shapeCast S1024x1024 A shapeCasts_S1x1024x1024_S1024x1024 (m2 p k) * shapeCast S1024x1024 X shapeCasts_S1x1024x1024_S1024x1024 (m2 k q) = _
  rw [shapeCast_dropUnit_apply ![1024, 1024], shapeCast_dropUnit_apply ![1024, 1024]]
  exact congrArg₂ (· * ·) (congrArg A (cons_m2 p k)) (congrArg X (cons_m2 k q))

end Cert.KernelIdeal.SampleProduct

end
-- ==== Proof.Spec.lean ====
/-
  The function both programs compute, over the extended reals:
      out[b, p, q] = Σ_k T[row b, p, k] · x[b, k, q],      row b = timestep b − 1,
  a per-sample product of a matrix picked from the table T by the sample's timestep with the sample x[b].
  The row is written as the machine word (timestep − 1) read unsigned and kept at most 99, so that it
  names a row of T whatever the word is; for a timestep in 1 … 100 it is timestep − 1 itself.
-/
import Idealize.ShloMosaic.PureOps.Ideal
import Idealize.ShloMosaic.Lib.ValueIdx

noncomputable section

namespace Cert.Spec

open Idealize.ShloMosaic Idealize.ShloMosaic.ValueIdx

/-- The row of the table that sample b multiplies by. -/
def rowOf (steps : (⟨1, ![128]⟩ : Shape).Idx → BitVec 32) (b : Fin 128) : Fin 100 :=
  ⟨min (IntOp.subi (steps (ix1 b)) 1#32).toNat 99, by omega⟩

/-- For a timestep in 1 … 100 the row is the word itself, read unsigned. -/
theorem rowOf_val (steps : (⟨1, ![128]⟩ : Shape).Idx → BitVec 32) (b : Fin 128)
    (h : (IntOp.subi (steps (ix1 b)) 1#32).toNat < 100) : (rowOf steps b).val = (IntOp.subi (steps (ix1 b)) 1#32).toNat := by
  show min _ 99 = _
  omega

/-- out[b] = T[row b] · x[b], entry by entry. -/
def gatherMatmul (x : (⟨3, ![128, 1024, 1024]⟩ : Shape).Idx → EReal) (T : (⟨3, ![100, 1024, 1024]⟩ : Shape).Idx → EReal)
    (row : Fin 128 → Fin 100) : (⟨3, ![128, 1024, 1024]⟩ : Shape).Idx → EReal :=
  fun j => ∑ k : Fin 1024, T (ix3 (row (j 0)) (j 1) k) * x (ix3 (j 0) k (j 2))

/-- At entry (b, p, q). -/
theorem gatherMatmul_apply (x : (⟨3, ![128, 1024, 1024]⟩ : Shape).Idx → EReal) (T : (⟨3, ![100, 1024, 1024]⟩ : Shape).Idx → EReal)
    (row : Fin 128 → Fin 100) (b : Fin 128) (p q : Fin 1024) :
    gatherMatmul x T row (ix3 b p q) = ∑ k : Fin 1024, T (ix3 (row b) p k) * x (ix3 b k q) := rfl

end Cert.Spec

end
-- ==== Proof.KernelResult.lean ====
/-
  The array the idealized kernel leaves: out[b] = T[timestep b − 1] · x[b] for every sample b.
  At grid point b the matrix window holds block (row, 0, 0) of T, row = word b of the prefetched
  table, the sample window block (b, 0, 0) of x, and the body writes their matrix product over the
  whole output block, which is written back as block (b, 0, 0) of the result.  The 128 blocks tile the
  result, so the result is the specification's function of x, T and the timesteps.
-/
import proofs.«419516_j51951924413084_1_alg».proof.Proof.BlockIndex
import proofs.«419516_j51951924413084_1_alg».proof.Proof.SampleProduct
import proofs.«419516_j51951924413084_1_alg».proof.Proof.Spec
import Idealize.ShloMosaic.Lib.Pipeline.Value

set_option maxRecDepth 16384

noncomputable section

namespace Cert.KernelIdeal.KernelResult

open Cert.KernelIdeal Cert.KernelIdeal.Gen Cert.KernelIdeal.TableRows Cert.KernelIdeal.BlockIndex Cert.KernelIdeal.SampleProduct
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The samples and the table of matrices the program is launched with. -/
abbrev xs (c : Dev nD) : S128x1024x1024.Idx → EReal := m ((c : Thread nD τ).loc main_arg0)
abbrev Ts (c : Dev nD) : S100x1024x1024.Idx → EReal := m ((c : Thread nD τ).loc main_arg2)

/-- The two input blocks at a point, at their literal type. -/
abbrev Ablk (hO : Ok m) (c : Dev nD) (t : Fin (cfgM m hO).N) : Vec Ideal S1x1024x1024 .f32 := iblk m hO c 0 t
abbrev Xblk (hO : Ok m) (c : Dev nD) (t : Fin (cfgM m hO).N) : Vec Ideal S1x1024x1024 .f32 := iblk m hO c 1 t

/-- A [1,1024,1024] block index has leading coordinate 0. -/
theorem lead0 (y : S1x1024x1024.Idx) : (y 0).val = 0 := by
  have h := (y 0).isLt
  have e : S1x1024x1024.size 0 = 1 := by decide
  omega

theorem matrix_block (hO : Ok m) (c : Dev nD) (t : Fin (cfgM m hO).N) (hlt : fetched m t < 100) (y : S1x1024x1024.Idx) :
    Ablk m hO c t y = Ts m c (ix3 (⟨fetched m t, hlt⟩ : Fin 100) (y 1) (y 2)) := by
  show V m c main_arg2 ((((cfgM m hO).win 0).blk t).view.emb y) = _
  rw [V_main_arg2]
  refine congrArg (Ts m c) (funext fun a => Fin.ext ?_)
  match a with
  | ⟨0, _⟩ =>
    show ((cfgM m hO).win 0).index t (0 : Fin 3) * 1 + 1 * (y 0).val = fetched m t
    rw [matrix_index, lead0]
    show fetched m t * 1 + 1 * 0 = fetched m t
    omega
  | ⟨1, _⟩ =>
    show ((cfgM m hO).win 0).index t (1 : Fin 3) * 1024 + 1 * (y 1).val = (y 1).val
    rw [matrix_index]
    show 0 * 1024 + 1 * (y 1).val = (y 1).val
    omega
  | ⟨2, _⟩ =>
    show ((cfgM m hO).win 0).index t (2 : Fin 3) * 1024 + 1 * (y 2).val = (y 2).val
    rw [matrix_index]
    show 0 * 1024 + 1 * (y 2).val = (y 2).val
    omega

/-- The sample window's block at point t is sample t of x. -/
theorem sample_block (hO : Ok m) (c : Dev nD) (t : Fin (cfgM m hO).N) (y : S1x1024x1024.Idx) :
    Xblk m hO c t y = xs m c (ix3 (sample t) (y 1) (y 2)) := by
  show V m c main_arg0 ((((cfgM m hO).win 1).blk t).view.emb y) = _
  rw [V_main_arg0]
  refine congrArg (xs m c) (funext fun a => Fin.ext ?_)
  have hi : ((cfgM m hO).win 1).index t = ![t.val, 0, 0] := sample_index t
  match a with
  | ⟨0, _⟩ =>
    show ((cfgM m hO).win 1).index t (0 : Fin 3) * 1 + 1 * (y 0).val = t.val
    rw [hi, lead0]
    show t.val * 1 + 1 * 0 = t.val
    omega
  | ⟨1, _⟩ =>
    show ((cfgM m hO).win 1).index t (1 : Fin 3) * 1024 + 1 * (y 1).val = (y 1).val
    rw [hi]
    show 0 * 1024 + 1 * (y 1).val = (y 1).val
    omega
  | ⟨2, _⟩ =>
    show ((cfgM m hO).win 1).index t (2 : Fin 3) * 1024 + 1 * (y 2).val = (y 2).val
    rw [hi]
    show 0 * 1024 + 1 * (y 2).val = (y 2).val
    omega

/-- Entry y of the result's block at point t is entry (t, y 1, y 2) of the result. -/
theorem result_emb (hO : Ok m) (t : Fin (cfgM m hO).N) (y : S1x1024x1024.Idx) :
    (((cfgM m hO).win 2).blk t).view.emb y = (ix3 (sample t) (y 1) (y 2) : S128x1024x1024.Idx) := by
  refine funext fun a => Fin.ext ?_
  have hi : ((cfgM m hO).win 2).index t = ![t.val, 0, 0] := result_index t
  match a with
  | ⟨0, _⟩ =>
    show ((cfgM m hO).win 2).index t (0 : Fin 3) * 1 + 1 * (y 0).val = t.val
    rw [hi, lead0]
    show t.val * 1 + 1 * 0 = t.val
    omega
  | ⟨1, _⟩ =>
    show ((cfgM m hO).win 2).index t (1 : Fin 3) * 1024 + 1 * (y 1).val = (y 1).val
    rw [hi]
    show 0 * 1024 + 1 * (y 1).val = (y 1).val
    omega
  | ⟨2, _⟩ =>
    show ((cfgM m hO).win 2).index t (2 : Fin 3) * 1024 + 1 * (y 2).val = (y 2).val
    rw [hi]
    show 0 * 1024 + 1 * (y 2).val = (y 2).val
    omega

/-! ## One point's block, then the whole result -/

/-- The timesteps as device c holds them (there is one device). -/
abbrev stepsAt (c : Dev nD) : IVec S128 32 := m ((c : Thread nD τ).loc main_arg1)
theorem stepsAt_eq (c : Dev nD) : stepsAt m c = steps m := by
  obtain rfl : c = 0 := Subsingleton.elim _ _
  rfl

/-- The specification's function of what device c is launched with. -/
abbrev spec (c : Dev nD) : S128x1024x1024.Idx → EReal :=
  Cert.Spec.gatherMatmul (xs m c) (Ts m c) (Cert.Spec.rowOf (stepsAt m c))

/-- The fetched row is the word timestep − 1 of the point's sample. -/
theorem fetched_eq (t : Fin grid0.N) : fetched m t = (IntOp.subi (steps m (ix1 (sample t))) 1#32).toNat := by
  unfold fetched
  rw [table_apply]

/-- Entry y of the block the body writes at point t is entry (t, y 1, y 2) of the specification. -/
theorem block_entry (hs : ∀ b, 1 ≤ (steps m b).toInt ∧ (steps m b).toInt ≤ 100) (hO : Ok m) (c : Dev nD) (t : Fin (cfgM m hO).N)
    (y : S1x1024x1024.Idx) :
    k0_pay1 (F := Ideal) (Ablk m hO c t) (Xblk m hO c t) y = spec m c (ix3 (sample t) (y 1) (y 2)) := by
  have hlt : fetched m t < 100 := word_lt m hs _
  obtain ⟨p, q, rfl⟩ : ∃ (p q : Fin 1024), y = b3 p q :=
    ⟨y 1, y 2, (eq_ix3 y).trans (congrArg (fun z : Fin 1 => ix3 z (y 1) (y 2)) (Fin.ext (lead0 y)))⟩
  rw [payload_entry]
  show _ = Cert.Spec.gatherMatmul (xs m c) (Ts m c) (Cert.Spec.rowOf (stepsAt m c)) (ix3 (sample t) p q)
  rw [Cert.Spec.gatherMatmul_apply, stepsAt_eq]
  refine Finset.sum_congr rfl fun k _ => ?_
  rw [matrix_block m hO c t hlt, sample_block]
  have hr : (⟨fetched m t, hlt⟩ : Fin 100) = Cert.Spec.rowOf (steps m) (sample t) :=
    Fin.ext ((fetched_eq m t).trans (Cert.Spec.rowOf_val _ _ (by rw [← fetched_eq]; exact hlt)).symm)
  rw [hr]

/-- WHAT POINT t WRITES BACK is block t of the specification. -/
theorem flushed_eq (hs : ∀ b, 1 ≤ (steps m b).toInt ∧ (steps m b).toInt ≤ 100) (hO : Ok m) (c : Dev nD) (t : Fin (cfgM m hO).N) :
    (dats m hO 0 c).flushed 2 t = (((cfgM m hO).win 2).blk t).view.read (Elt Ideal) (spec m c) := by
  show ((cfgM m hO).win 2).cut (grid0.coords t) ((dats m hO 0 c).after 2 t) = _
  rw [after0_2]
  unfold outsAt0
  funext y
  exact (congrFun (block_eq_payload (F := Ideal) c (grid0.coords t) (ms0_0 m hO t) (hs0_0 m hO t) (ms0_1 m hO t) (hs0_1 m hO t)
      (ms0_2 m hO t) (hs0_2 m hO t) (Ablk m hO c t) (Xblk m hO c t) (tbl m 0)) y).trans
    ((block_entry m hs hO c t y).trans (congrArg (spec m c) (result_emb m hO t y).symm))

/-- An entry of the result is in point t's block when each coordinate is in the block's range. -/
theorem mem_result_block (hO : Ok m) (t : Fin (cfgM m hO).N) (i : S128x1024x1024.Idx) :
    i ∈ (((cfgM m hO).win 2).blk t).view.set ↔ ∀ a : Fin 3, ((cfgM m hO).win 2).index t a * S1x1024x1024.size a ≤ (i a).val
      ∧ (i a).val < ((cfgM m hO).win 2).index t a * S1x1024x1024.size a + S1x1024x1024.size a := by
  show i ∈ ((View.whole main_v2).slice (((cfgM m hO).win 2).rect t)).set ↔ _
  refine (iff_of_eq (congrArg (fun S => i ∈ S) (View.set_slice_whole main_v2 (((cfgM m hO).win 2).rect t)))).trans ?_
  refine Rect.mem_set_unit.trans ?_
  exact Iff.rfl

/-- Every entry (b, p, q) of the result is in the block of point b, which is written back. -/
theorem cover (hO : Ok m) (i : S128x1024x1024.Idx) :
    ∃ t : Fin (cfgM m hO).N, ((cfgM m hO).win 2).flush t = true ∧ i ∈ (((cfgM m hO).win 2).blk t).view.set := by
  have h0 : (i 0).val < 128 := (i 0).isLt
  have h1 : (i 1).val < 1024 := (i 1).isLt
  have h2 : (i 2).val < 1024 := (i 2).isLt
  refine ⟨⟨(i 0).val, lt_of_lt_of_eq h0 N_0.symm⟩, flush0_2 (adm m hO) _, ?_⟩
  rw [mem_result_block]
  have hi : ((cfgM m hO).win 2).index ⟨(i 0).val, lt_of_lt_of_eq h0 N_0.symm⟩ = ![(i 0).val, 0, 0] := result_index _
  intro a
  rw [hi]
  match a with
  | ⟨0, _⟩ => show (i 0).val * 1 ≤ (i 0).val ∧ (i 0).val < (i 0).val * 1 + 1; omega
  | ⟨1, _⟩ => show 0 * 1024 ≤ (i 1).val ∧ (i 1).val < 0 * 1024 + 1024; omega
  | ⟨2, _⟩ => show 0 * 1024 ≤ (i 2).val ∧ (i 2).val < 0 * 1024 + 1024; omega

/-- THE RESULT ARRAY after the run is the specification. -/
theorem final (hs : ∀ b, 1 ≤ (steps m b).toInt ∧ (steps m b).toInt ≤ 100) (hO : Ok m) (c : Dev nD) :
    (dats m hO 0 c).arrAt 2 (cfgM m hO).N = spec m c :=
  (dats m hO 0 c).arrAt_eq_of_cover 2 (spec m c) (fun t _ => flushed_eq m hs hO c t) (cover m hO)

/-- THE KERNEL'S RUN with its result named: for timesteps in 1 … 100 every execution terminates with the
    result at the specification and the three inputs as launched. -/
theorem run (hs : ∀ b, 1 ≤ (steps m b).toInt ∧ (steps m b).toInt ≤ 100) :
    θ_run defs (onTc (τ := τ) (main (F := Ideal))) ⟨m, fun _ => 0, ρ⟩ fun r => ∀ c : Dev nD,
      r.2.mem ((c : Thread nD τ).loc main_v2) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  have hO : Ok m := ok_of_range m hs
  refine (θ_run defs _ _).mono (fun _ hq c => ?_) (run_main m ρ hO)
  exact ⟨((hq c).1 2).trans (final m hs hO c),
    ((hq c).1 1).trans (((dats m hO 0 c).arrAt_in 1 rfl _).trans ((A_eq m hO c 1).trans (V_main_arg0 m c))),
    ((hq c).2 main_arg1 (by decide : main_arg1 ∈ Pipeline.restRefs sig spec0)).trans (V_main_arg1 m c),
    ((hq c).1 0).trans (((dats m hO 0 c).arrAt_in 0 rfl _).trans ((A_eq m hO c 0).trans (V_main_arg2 m c)))⟩

end Cert.KernelIdeal.KernelResult

end
-- ==== Proof.GatherRead.lean ====
/-
  The reference's gather, read at an entry.  jnp's T[idx] over the leading axis of the [100,1024,1024]
  table lowers to a gather whose start indices are the [128,1] column of row numbers: offset axes 1
  and 2 of the result carry a whole [1024,1024] matrix, operand axis 0 is collapsed and started at the
  row number, which the gather reads signed and clamps into 0 … 99.  So result entry (b, p, q) is
  table entry (row b, p, q) with row b = the clamp of column entry (b, 0).
-/
import proofs.«419516_j51951924413084_1_alg».proof.Proof.Gen.ReferenceIdeal
import Idealize.ShloMosaic.Lib.ValueIdx

set_option maxRecDepth 16384

noncomputable section

namespace Cert.ReferenceIdeal.GatherRead

open Cert.ReferenceIdeal Cert.ReferenceIdeal.Gen
open Idealize.ShloMosaic Idealize.ShloMosaic.ValueIdx

/-- Column entry (b, 0) of the start indices. -/
abbrev startAt (b : Fin 128) : S128x1.Idx := ix2 b (⟨0, Nat.one_pos⟩ : Fin 1)

/-- The row the gather reads for sample b: its start index, signed, clamped into 0 … 99. -/
def clampRow {w : Nat} (idx : IVec S128x1 w) (b : Fin 128) : Fin 100 := ⟨min (idx (startAt b)).toInt.toNat 99, by omega⟩

/-- The start-indices entry that result index j reads its one start component from. -/
theorem start_entry (j : S128x1024x1024.Idx) (hlt) :
    gather_S100x1024x1024_S128x1_S128x1024x1024_12_0_n_n_0_1_110241024.siIdx j ⟨List.idxOf (0 : Fin S100x1024x1024.rank) gather_S100x1024x1024_S128x1_S128x1024x1024_12_0_n_n_0_1_110241024.startIndexMap, hlt⟩ = startAt (j 0) := by
  funext b
  refine Fin.ext ?_
  match b with
  | ⟨0, _⟩ => rfl
  | ⟨1, _⟩ => rfl

/-- Operand axis 0 is collapsed and started at the clamped row number. -/
theorem operand_row {w : Nat} (idx : IVec S128x1 w) (j : S128x1024x1024.Idx) :
    (gather_S100x1024x1024_S128x1_S128x1024x1024_12_0_n_n_0_1_110241024.operandIdx j idx 0).val = (clampRow idx (j 0)).val := by
  show gather_S100x1024x1024_S128x1_S128x1024x1024_12_0_n_n_0_1_110241024.start j idx 0 + gather_S100x1024x1024_S128x1_S128x1024x1024_12_0_n_n_0_1_110241024.batchCoord j 0 + gather_S100x1024x1024_S128x1_S128x1024x1024_12_0_n_n_0_1_110241024.offCoord j 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin S100x1024x1024.rank) ∈ gather_S100x1024x1024_S128x1_S128x1024x1024_12_0_n_n_0_1_110241024.startIndexMap from List.mem_singleton.mpr rfl), start_entry]
  rfl

/-- Operand axes 1 and 2 are the result's offset axes 1 and 2, started at 0. -/
theorem operand_p {w : Nat} (idx : IVec S128x1 w) (j : S128x1024x1024.Idx) :
    (gather_S100x1024x1024_S128x1_S128x1024x1024_12_0_n_n_0_1_110241024.operandIdx j idx 1).val = (j 1).val := by
  show gather_S100x1024x1024_S128x1_S128x1024x1024_12_0_n_n_0_1_110241024.start j idx 1 + gather_S100x1024x1024_S128x1_S128x1024x1024_12_0_n_n_0_1_110241024.batchCoord j 1 + gather_S100x1024x1024_S128x1_S128x1024x1024_12_0_n_n_0_1_110241024.offCoord j 1 = _
  rw [GatherDims.batchCoord_eq_zero _ _ _ List.not_mem_nil, Nat.add_zero]
  unfold GatherDims.start GatherDims.offCoord
  rw [dif_neg (show ¬(1 : Fin S100x1024x1024.rank) ∈ gather_S100x1024x1024_S128x1_S128x1024x1024_12_0_n_n_0_1_110241024.startIndexMap by decide), dif_pos (show (1 : Fin S100x1024x1024.rank) ∈ gather_S100x1024x1024_S128x1_S128x1024x1024_12_0_n_n_0_1_110241024.sKept by decide)]
  show 0 + (j 1).val = (j 1).val
  omega
theorem operand_q {w : Nat} (idx : IVec S128x1 w) (j : S128x1024x1024.Idx) :
    (gather_S100x1024x1024_S128x1_S128x1024x1024_12_0_n_n_0_1_110241024.operandIdx j idx 2).val = (j 2).val := by
  show gather_S100x1024x1024_S128x1_S128x1024x1024_12_0_n_n_0_1_110241024.start j idx 2 + gather_S100x1024x1024_S128x1_S128x1024x1024_12_0_n_n_0_1_110241024.batchCoord j 2 + gather_S100x1024x1024_S128x1_S128x1024x1024_12_0_n_n_0_1_110241024.offCoord j 2 = _
  rw [GatherDims.batchCoord_eq_zero _ _ _ List.not_mem_nil, Nat.add_zero]
  unfold GatherDims.start GatherDims.offCoord
  rw [dif_neg (show ¬(2 : Fin S100x1024x1024.rank) ∈ gather_S100x1024x1024_S128x1_S128x1024x1024_12_0_n_n_0_1_110241024.startIndexMap by decide), dif_pos (show (2 : Fin S100x1024x1024.rank) ∈ gather_S100x1024x1024_S128x1_S128x1024x1024_12_0_n_n_0_1_110241024.sKept by decide)]
  show 0 + (j 2).val = (j 2).val
  omega

/-- THE GATHER AT AN ENTRY. -/
theorem gather_apply {α : Type} {w : Nat} (x : S100x1024x1024.Idx → α) (idx : IVec S128x1 w) (j : S128x1024x1024.Idx) :
    Host.gather gather_S100x1024x1024_S128x1_S128x1024x1024_12_0_n_n_0_1_110241024 x idx j = x (ix3 (clampRow idx (j 0)) (j 1) (j 2)) := by
  unfold Host.gather
  refine congrArg x (funext fun a => Fin.ext ?_)
  match a with
  | ⟨0, _⟩ => exact operand_row idx j
  | ⟨1, _⟩ => exact operand_p idx j
  | ⟨2, _⟩ => exact operand_q idx j

end Cert.ReferenceIdeal.GatherRead

end
-- ==== Proof.RefResult.lean ====
/-
  The reference computes the specification's function.  Its row numbers are timestep − 1, wrapped by
  +100 when negative (jnp's negative indexing) and clamped into 0 … 99 by the gather.  For a timestep in
  1 … 100 the word timestep − 1 is in 0 … 99: it is not negative, so the wrap is not taken, and the clamp
  leaves it.  The batched product over the gathered matrices is then, entry by entry, the sum over the
  contracted index of table entry (row b, p, k) times sample entry (b, k, q).
-/
import proofs.«419516_j51951924413084_1_alg».proof.Proof.Gen.ReferenceIdeal.Read
import proofs.«419516_j51951924413084_1_alg».proof.Proof.GatherRead
import proofs.«419516_j51951924413084_1_alg».proof.Proof.StepRange
import proofs.«419516_j51951924413084_1_alg».proof.Proof.Spec

set_option maxRecDepth 16384

noncomputable section

namespace Cert.ReferenceIdeal.RefResult

open Cert.ReferenceIdeal Cert.ReferenceIdeal.Gen Cert.ReferenceIdeal.Read Cert.ReferenceIdeal.GatherRead
open Idealize.ShloMosaic Idealize.ShloMosaic.ValueIdx

/-- A select whose condition bit is not set takes its second branch. -/
theorem select_clear {α : Type} (c : BitVec 1) (a b : α) (h : ¬ c = 1#1) : Scalar.select c a b = b := if_neg h

/-- Column entry (b, 0) of the start indices comes from entry b of the row-number vector. -/
theorem column_entry (b : Fin 128) : idx_main_v7 (startAt b) = ix1 b :=
  funext fun a => by match a with | ⟨0, _⟩ => rfl

/-- With timestep b in 1 … 100 the start index for sample b is the word timestep − 1, unwrapped. -/
theorem start_word (s : IVec S128 32) (b : Fin 128) (h : 1 ≤ (s (ix1 b)).toInt ∧ (s (ix1 b)).toInt ≤ 100) :
    val_main_v7 (F := Ideal) s (startAt b) = IntOp.subi (s (ix1 b)) 1#32 := by
  rw [val_main_v7_apply, column_entry, val_main_v6_apply]
  have hw : val_main_v1 (F := Ideal) s (ix1 b) = IntOp.subi (s (ix1 b)) 1#32 := rfl
  have hnot : ¬ val_main_v3 (F := Ideal) s (ix1 b) = 1#1 := by
    rw [val_main_v3_apply, hw, show val_main_v2 (F := Ideal) (ix1 b) = 0#32 from rfl, IntOp.cmpi_slt,
      Cert.StepRange.pred_toInt _ h, show (0#32 : BitVec 32).toInt = 0 from by decide]
    omega
  rw [select_clear _ _ _ hnot, hw]

/-- So the gather's clamped row is the specification's row. -/
theorem clamp_eq_row (s : IVec S128 32) (b : Fin 128) (h : 1 ≤ (s (ix1 b)).toInt ∧ (s (ix1 b)).toInt ≤ 100) :
    clampRow (val_main_v7 (F := Ideal) s) b = Cert.Spec.rowOf s b := by
  apply Fin.ext
  show min (val_main_v7 (F := Ideal) s (startAt b)).toInt.toNat 99 = min (IntOp.subi (s (ix1 b)) 1#32).toNat 99
  rw [start_word s b h, Cert.StepRange.pred_toInt _ h, Int.toNat_natCast]

/-- The product's operand entries at result entry (b, p, q) and contraction index k. -/
theorem left_entry (b : Fin 128) (p q k : Fin 1024) : lidx_main_v9 (ix3 b p q) k = ix3 b p k :=
  funext fun a => by match a with | ⟨0, _⟩ => rfl | ⟨1, _⟩ => rfl | ⟨2, _⟩ => rfl
theorem right_entry (b : Fin 128) (p q k : Fin 1024) : ridx_main_v9 (ix3 b p q) k = ix3 b k q :=
  funext fun a => by match a with | ⟨0, _⟩ => rfl | ⟨1, _⟩ => rfl | ⟨2, _⟩ => rfl

/-- THE REFERENCE IS THE SPECIFICATION, for timesteps in 1 … 100. -/
theorem ref_eq (x : FVec Ideal S128x1024x1024 .f32) (s : IVec S128 32) (T : FVec Ideal S100x1024x1024 .f32)
    (h : ∀ b : S128.Idx, 1 ≤ (s b).toInt ∧ (s b).toInt ≤ 100) :
    val_main_v9 (F := Ideal) x s T = Cert.Spec.gatherMatmul x T (Cert.Spec.rowOf s) := by
  funext j
  obtain ⟨b, p, q, rfl⟩ : ∃ (b : Fin 128) (p q : Fin 1024), j = ix3 b p q := ⟨j 0, j 1, j 2, eq_ix3 j⟩
  rw [val_main_v9_apply, Cert.Spec.gatherMatmul_apply]
  refine Finset.sum_congr rfl fun k _ => ?_
  rw [left_entry, right_entry]
  show Host.gather gather_S100x1024x1024_S128x1_S128x1024x1024_12_0_n_n_0_1_110241024 T (val_main_v7 (F := Ideal) s) (ix3 b p k) * _ = _
  rw [gather_apply]
  show T (ix3 (clampRow (val_main_v7 (F := Ideal) s) b) p k) * _ = _
  rw [clamp_eq_row s b (h _)]

end Cert.ReferenceIdeal.RefResult

end
-- ==== Proof.lean ====
/-
  out[b] = T[timestep b − 1] · x[b], for b = 0 … 127: a Pallas kernel that picks each sample's matrix
  through a prefetched table of row numbers and multiplies on the MXU, against jnp's gather followed by
  a batched einsum.  Stated for timesteps in 1 … 100 (the rows the table of 100 matrices has), under
  which the kernel's table-indexed blocks lie inside the table — the side condition its run needs, at
  the word level and at the ideal instance alike — and the reference's wrap and clamp of the row number
  do nothing.  Over the extended reals both programs then compute, entry by entry,
      out[b, p, q] = Σ_k T[timestep b − 1, p, k] · x[b, k, q]:
  the kernel block by block (one sample per grid point, the 128 blocks tiling the result), the reference
  as one contraction over the gathered matrices.  The same finite sum of the same products, term by
  term; no law of arithmetic beyond that is used, and the finiteness of the inputs is not needed.
-/
import proofs.«419516_j51951924413084_1_alg».proof.Defs
import proofs.«419516_j51951924413084_1_alg».proof.Proof.Gen.Kernel
import proofs.«419516_j51951924413084_1_alg».proof.Proof.Gen.Kernel.Frame
import proofs.«419516_j51951924413084_1_alg».proof.Proof.Gen.KernelIdeal
import proofs.«419516_j51951924413084_1_alg».proof.Proof.Gen.KernelIdeal.Frame
import proofs.«419516_j51951924413084_1_alg».proof.Proof.Gen.ReferenceIdeal
import proofs.«419516_j51951924413084_1_alg».proof.Proof.Gen.Pre_finite_inputs
import proofs.«419516_j51951924413084_1_alg».proof.Proof.Gen.ReferenceIdeal.Run
import proofs.«419516_j51951924413084_1_alg».proof.Proof.Gen.ReferenceIdeal.Read
import proofs.«419516_j51951924413084_1_alg».proof.Proof.TableRows
import proofs.«419516_j51951924413084_1_alg».proof.Proof.TableRowsBits
import proofs.«419516_j51951924413084_1_alg».proof.Proof.KernelResult
import proofs.«419516_j51951924413084_1_alg».proof.Proof.RefResult
import Idealize.ShloMosaic.Adequacy
import Idealize.ShloMosaic.Init

noncomputable section

namespace Cert.Proof

open Idealize.ShloMosaic Idealize.SL.Sem

/-- The precondition at the ideal instance puts every timestep in 1 … 100. -/
theorem steps_of_pre (m : (ℓ : Loc Cert.KernelIdeal.nD Cert.KernelIdeal.τ Cert.KernelIdeal.sig) → Buf (Elt Ideal) ℓ)
    (h : Cert.Pre_KernelIdeal m) (b : Cert.KernelIdeal.S128.Idx) :
    1 ≤ (Cert.KernelIdeal.TableRows.steps m b).toInt ∧ (Cert.KernelIdeal.TableRows.steps m b).toInt ≤ 100 :=
  Cert.StepRange.steps_in_range _ _ _ (h 0) b

theorem claim : Cert.Claim := ⟨Cert.Kernel.Gen.facts, Cert.KernelIdeal.Gen.facts, Cert.ReferenceIdeal.Gen.facts, Cert.Pre_finite_inputs.Gen.facts, by
  refine ⟨?_, ?_, ?_, trivial, ?_⟩
  · -- the word-level kernel runs: its table-indexed blocks are inside the table
    exact fun m ρ h => Cert.Kernel.Gen.frame m ρ (Cert.Kernel.TableRows.ok_of_pre m (h 0))
  · -- so does the idealized kernel
    exact fun m ρ h => Cert.KernelIdeal.Gen.frame m ρ (Cert.KernelIdeal.TableRows.ok_of_pre m (h 0))
  · -- the reference is host operations only
    exact fun m ρ _ => (θ_run Cert.ReferenceIdeal.defs _ _).mono (fun _ h c => (h c).2)
      (Cert.ReferenceIdeal.Value.run (F := Ideal) m ρ)
  · -- both end at the specification's function of the common inputs
    intro m ρ m' ρ' hpre hagree
    refine ⟨fun c => Cert.KernelIdeal.KernelResult.spec m c, Cert.KernelIdeal.KernelResult.run m ρ (steps_of_pre m hpre), ?_⟩
    refine (θ_run Cert.ReferenceIdeal.defs _ _).mono (fun _ h c => ⟨?_, (h c).2⟩) (Cert.ReferenceIdeal.Value.run (F := Ideal) m' ρ')
    rw [(h c).1, Cert.ReferenceIdeal.Read.val_main_v9_eq, (hagree c).1, (hagree c).2.1, (hagree c).2.2]
    have hc : c = 0 := Subsingleton.elim _ _
    subst hc
    exact Cert.ReferenceIdeal.RefResult.ref_eq _ _ _ (steps_of_pre m hpre)⟩

end Cert.Proof

end
